-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x640000 32) (main_arg2 : FVec F S128x128 .f32) (main_arg3 : FVec F S128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩
abbrev S5000x128 : Shape := ⟨2, ![5000, 128]⟩

abbrev nBuf : Space → Nat
  | .hbm => 40
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x640000, .i32⟩
  | .hbm, ⟨7, _⟩ => ⟨S640000, .i32⟩
  | .hbm, ⟨8, _⟩ => ⟨S1x640000, .i32⟩
  | .hbm, ⟨9, _⟩ => ⟨S640000, .i32⟩
  | .hbm, ⟨10, _⟩ => ⟨S_, .i32⟩
  | .hbm, ⟨11, _⟩ => ⟨S640000, .i32⟩
  | .hbm, ⟨12, _⟩ => ⟨S640000, .i1⟩
  | .hbm, ⟨13, _⟩ => ⟨S_, .i32⟩
  | .hbm, ⟨14, _⟩ => ⟨S640000, .i32⟩
  | .hbm, ⟨15, _⟩ => ⟨S640000, .i32⟩
  | .hbm, ⟨16, _⟩ => ⟨S640000, .i32⟩
  | .hbm, ⟨17, _⟩ => ⟨S640000x1, .i32⟩
  | .hbm, ⟨18, _⟩ => ⟨S640000x128, .f32⟩
  | .hbm, ⟨19, _⟩ => ⟨S_, .f32⟩
  | .hbm, ⟨20, _⟩ => ⟨S100000x128, .f32⟩
  | .hbm, ⟨21, _⟩ => ⟨S640000x1, .i32⟩
  | .hbm, ⟨22, _⟩ => ⟨S100000x128, .f32⟩
  | .hbm, ⟨23, _⟩ => ⟨S1x128, .f32⟩
  | .hbm, ⟨24, _⟩ => ⟨S100000x128, .f32⟩
  | .hbm, ⟨25, _⟩ => ⟨S_, .i32⟩
  | .hbm, ⟨26, _⟩ => ⟨S640000, .i32⟩
  | .hbm, ⟨27, _⟩ => ⟨S640000, .i1⟩
  | .hbm, ⟨28, _⟩ => ⟨S_, .i32⟩
  | .hbm, ⟨29, _⟩ => ⟨S640000, .i32⟩
  | .hbm, ⟨30, _⟩ => ⟨S640000, .i32⟩
  | .hbm, ⟨31, _⟩ => ⟨S640000, .i32⟩
  | .hbm, ⟨32, _⟩ => ⟨S640000x1, .i32⟩
  | .hbm, ⟨33, _⟩ => ⟨S640000x128, .f32⟩
  | .hbm, ⟨34, _⟩ => ⟨S_, .f32⟩
  | .hbm, ⟨35, _⟩ => ⟨S100000x128, .f32⟩
  | .hbm, ⟨36, _⟩ => ⟨S640000x1, .i32⟩
  | .hbm, ⟨37, _⟩ => ⟨S100000x128, .f32⟩
  | .hbm, ⟨38, _⟩ => ⟨S1x128, .f32⟩
  | .hbm, ⟨39, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v15) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩

abbrev nBuf : Space → Nat
  | .hbm => 49
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x640000, .i32⟩
  | .hbm, ⟨7, _⟩ => ⟨S640000, .i32⟩
  | .hbm, ⟨8, _⟩ => ⟨S1x640000, .i32⟩
  | .hbm, ⟨9, _⟩ => ⟨S640000, .i32⟩
  | .hbm, ⟨10, _⟩ => ⟨S_, .i32⟩
  | .hbm, ⟨11, _⟩ => ⟨S640000, .i32⟩
  | .hbm, ⟨12, _⟩ => ⟨S640000, .i1⟩
  | .hbm, ⟨13, _⟩ => ⟨S_, .i32⟩
  | .hbm, ⟨14, _⟩ => ⟨S640000, .i32⟩
  | .hbm, ⟨15, _⟩ => ⟨S640000, .i32⟩
  | .hbm, ⟨16, _⟩ => ⟨S640000, .i32⟩
  | .hbm, ⟨17, _⟩ => ⟨S640000x1, .i32⟩
  | .hbm, ⟨18, _⟩ => ⟨S640000x128, .f32⟩
  | .hbm, ⟨19, _⟩ => ⟨S_, .f32⟩
  | .hbm, ⟨20, _⟩ => ⟨S100000x128, .f32⟩
  | .hbm, ⟨21, _⟩ => ⟨S640000x1, .i32⟩
  | .hbm, ⟨22, _⟩ => ⟨S100000x128, .f32⟩
  | .hbm, ⟨23, _⟩ => ⟨S100000x128, .f32⟩
  | .hbm, ⟨24, _⟩ => ⟨S100000x128, .f32⟩
  | .hbm, ⟨25, _⟩ => ⟨S1x128, .f32⟩
  | .hbm, ⟨26, _⟩ => ⟨S100000x128, .f32⟩
  | .hbm, ⟨27, _⟩ => ⟨S100000x128, .f32⟩
  | .hbm, ⟨28, _⟩ => ⟨S_, .f32⟩
  | .hbm, ⟨29, _⟩ => ⟨S100000x128, .f32⟩
  | .hbm, ⟨30, _⟩ => ⟨S100000x128, .f32⟩
  | .hbm, ⟨31, _⟩ => ⟨S_, .i32⟩
  | .hbm, ⟨32, _⟩ => ⟨S640000, .i32⟩
  | .hbm, ⟨33, _⟩ => ⟨S640000, .i1⟩
  | .hbm, ⟨34, _⟩ => ⟨S_, .i32⟩
  | .hbm, ⟨35, _⟩ => ⟨S640000, .i32⟩
  | .hbm, ⟨36, _⟩ => ⟨S640000, .i32⟩
  | .hbm, ⟨37, _⟩ => ⟨S640000, .i32⟩
  | .hbm, ⟨38, _⟩ => ⟨S640000x1, .i32⟩
  | .hbm, ⟨39, _⟩ => ⟨S640000x128, .f32⟩
  | .hbm, ⟨40, _⟩ => ⟨S_, .f32⟩
  | .hbm, ⟨41, _⟩ => ⟨S100000x128, .f32⟩
  | .hbm, ⟨42, _⟩ => ⟨S640000x1, .i32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S1x128, .f32⟩
  | .hbm, ⟨47, _⟩ => ⟨S100000x128, .f32⟩
  | .hbm, ⟨48, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_cst : Ref sig .tc := ⟨.hbm, 28, rfl⟩
abbrev main_call0_v0 : Ref sig .tc := ⟨.hbm, 29, rfl⟩
abbrev main_v19 : Ref sig .tc := ⟨.hbm, 30, rfl⟩
abbrev main_c_1 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S100000x128_S128x128_S100000x128_1_0_0_1_n_n_wf : DotDims.WF S100000x128 S128x128 S100000x128 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KBody.lean ====
/-
  What one grid step of either layer kernel stores, read at row `p` and lane `q` of its 5000 × 128 block.

  The body adds the block of node features to the block of aggregated neighbour features, multiplies the sum by
  the 128 × 128 weights on the matrix unit into a zero accumulator, and adds the bias row to every row; the first
  layer then takes the maximum with zero. At the ideal values the narrowing to bf16 before the product is the
  identity and the product into a zero accumulator is the plain sum over the 128 contracted features, so the
  stored value is `Σ_k (x(p,k) + a(p,k)) · w(k,q) + b(0,q)`, rectified in the first layer.
-/
import proofs.«157389_j46531675685231_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx
open scoped BigOperators

/-! ## The block product's operand indices: rows from the output row, columns from the output lane -/

theorem lhs_row (i : S5000x128.Idx) (r : dot_S5000x128_S128x128_S5000x128_1_0_0_1_n_n.contr.Idx) :
    (dot_S5000x128_S128x128_S5000x128_1_0_0_1_n_n.lhsIdx i r 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_col (i : S5000x128.Idx) (r : dot_S5000x128_S128x128_S5000x128_1_0_0_1_n_n.contr.Idx) :
    (dot_S5000x128_S128x128_S5000x128_1_0_0_1_n_n.lhsIdx i r 1).val = (r ⟨0, by decide⟩).val :=
  dot_S5000x128_S128x128_S5000x128_1_0_0_1_n_n.lhsIdx_val_of_single rfl i r
theorem rhs_row (i : S5000x128.Idx) (r : dot_S5000x128_S128x128_S5000x128_1_0_0_1_n_n.contr.Idx) :
    (dot_S5000x128_S128x128_S5000x128_1_0_0_1_n_n.rhsIdx i r 0).val = (r ⟨0, by decide⟩).val :=
  dot_S5000x128_S128x128_S5000x128_1_0_0_1_n_n.rhsIdx_val_of_single rfl i r
theorem rhs_col (i : S5000x128.Idx) (r : dot_S5000x128_S128x128_S5000x128_1_0_0_1_n_n.contr.Idx) :
    (dot_S5000x128_S128x128_S5000x128_1_0_0_1_n_n.rhsIdx i r 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The matrix unit's product of a 5000 × 128 block with the 128 × 128 weights, into a zero accumulator, at row `p`
    and lane `q`: the sum over the contracted feature `k` of `l(p,k) · r(k,q)`. -/
theorem block_product_apply (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-! ## The two payloads at an index -/

/-- The first layer's stored block at `(p, q)`: the affine value, rectified. -/
theorem pay0_apply (x a : FVec Ideal S5000x128 .f32) (w : FVec Ideal S128x128 .f32) (b : FVec Ideal S1x128 .f32)
    (p : Fin 5000) (q : Fin 128) :
    k0_pay1 (F := Ideal) x a w b (ix2 p q)
      = max ((∑ k : Fin 128, (x (ix2 p k) + a (ix2 p k)) * w (ix2 k q)) + b (ix2 (0 : Fin 1) q))
          (Ideal.ofBits .f32 0x00000000#32) := by
  unfold k0_pay1
  rw [maximumf_apply, addf_apply, block_product_apply, shapeCast_self, shapeCast_self, broadcastTo_1b_ab_apply]
  rfl

/-- The second layer's stored block at `(p, q)`: the affine value. -/
theorem pay1_apply (x a : FVec Ideal S5000x128 .f32) (w : FVec Ideal S128x128 .f32) (b : FVec Ideal S1x128 .f32)
    (p : Fin 5000) (q : Fin 128) :
    k1_pay1 (F := Ideal) x a w b (ix2 p q)
      = (∑ k : Fin 128, (x (ix2 p k) + a (ix2 p k)) * w (ix2 k q)) + b (ix2 (0 : Fin 1) q) := by
  unfold k1_pay1
  rw [addf_apply, block_product_apply, shapeCast_self, shapeCast_self, shapeCast_self, broadcastTo_1b_ab_apply]
  rfl

end Cert.KernelIdeal.Body

end
-- ==== Proof.Spec.lean ====
/-
  The mathematics both programs compute, stated once over literal shapes and with no program in sight.

  A graph-isomorphism layer sends node features `z` (100000 nodes, 128 features each) to
  `(z + A z) · W + b`, where `A z` is the sum of the features of each node's in-neighbours. The
  aggregation `A` is whatever function of the feature array the edge list induces; everything here
  is stated for an arbitrary `A`, so that nothing below ever looks inside a gather or a scatter-add.
  The network is two such layers with a rectifier after the first.
-/
import Idealize.ShloMosaic.PureOps.Ideal
import Idealize.ShloMosaic.Lib.ValueIdx

noncomputable section

namespace Gin

open Idealize.ShloMosaic Idealize.ShloMosaic.ValueIdx
open scoped BigOperators

/-- Node features: 100000 nodes by 128 features. -/
abbrev Nodes : Shape := ⟨2, ![100000, 128]⟩
/-- A layer's weights: input feature by output feature. -/
abbrev Weights : Shape := ⟨2, ![128, 128]⟩
/-- A layer's bias: one entry per output feature. -/
abbrev Bias : Shape := ⟨1, ![128]⟩

/-- The affine map of a layer at node `p` and output feature `q`: `Σ_k z(p,k) · W(k,q) + b(q)`. -/
def affineAt (z : FVec Ideal Nodes .f32) (W : FVec Ideal Weights .f32) (b : Fin 128 → EReal) (p : Fin 100000) (q : Fin 128) : EReal :=
  (∑ k : Fin 128, z (ix2 p k) * W (ix2 k q)) + b q

/-- The same as an array over the nodes. -/
def affine (z : FVec Ideal Nodes .f32) (W : FVec Ideal Weights .f32) (b : Fin 128 → EReal) : FVec Ideal Nodes .f32 :=
  fun i => affineAt z W b (i 0) (i 1)

/-- The rectifier: the maximum with the zero both programs write as the word `0x00000000`. -/
def rectify (y : FVec Ideal Nodes .f32) : FVec Ideal Nodes .f32 :=
  fun i => max (y i) (Ideal.ofBits .f32 0x00000000#32)

/-- What a layer multiplies by its weights: a node's own features plus its neighbours' sum. -/
def withNeighbours (A : FVec Ideal Nodes .f32 → FVec Ideal Nodes .f32) (z : FVec Ideal Nodes .f32) : FVec Ideal Nodes .f32 :=
  fun i => z i + A z i

/-- The hidden features: the first layer, rectified. -/
def hidden (A : FVec Ideal Nodes .f32 → FVec Ideal Nodes .f32) (x : FVec Ideal Nodes .f32)
    (W1 : FVec Ideal Weights .f32) (b1 : Fin 128 → EReal) : FVec Ideal Nodes .f32 :=
  rectify (affine (withNeighbours A x) W1 b1)

/-- The network's result: the second layer on the hidden features. -/
def network (A : FVec Ideal Nodes .f32 → FVec Ideal Nodes .f32) (x : FVec Ideal Nodes .f32)
    (W1 : FVec Ideal Weights .f32) (b1 : Fin 128 → EReal) (W2 : FVec Ideal Weights .f32) (b2 : Fin 128 → EReal) :
    FVec Ideal Nodes .f32 :=
  affine (withNeighbours A (hidden A x W1 b1)) W2 b2

theorem affine_apply (z : FVec Ideal Nodes .f32) (W : FVec Ideal Weights .f32) (b : Fin 128 → EReal) (p : Fin 100000) (q : Fin 128) :
    affine z W b (ix2 p q) = affineAt z W b p q := rfl

end Gin

end
-- ==== Proof.KBlock.lean ====
/-
  One grid step of a layer kernel against the layer's value on whole arrays.

  A step works on a block of 5000 consecutive nodes. If row `p` of the staged feature block and of the staged
  neighbour block is row `e p` of the corresponding arrays, and the staged weights and bias row are the arrays'
  own, then what the step stores at `(p, q)` is the layer's value at node `e p`, feature `q`: the same sum over
  the 128 contracted features, read through the row map.
-/
import proofs.«157389_j46531675685231_1_alg».proof.Proof.KBody
import proofs.«157389_j46531675685231_1_alg».proof.Proof.Spec

noncomputable section

namespace Cert.KernelIdeal.Region

open Cert.KernelIdeal Cert.KernelIdeal.Gen Idealize.ShloMosaic Idealize.ShloMosaic.ValueIdx

/-- A block at offset (0, 0) of its own extents is the whole buffer. -/
theorem hz : (![0, 0] : Fin 2 → Nat) = fun _ => 0 := funext fun a => by fin_cases a <;> rfl

/-- Row `p` of node block `n` is node `n·5000 + p`. -/
def rowOf (n : ℕ) (hn : n ≤ 19) (p : Fin 5000) : Fin 100000 := ⟨n * 5000 + p.val, by have := p.isLt; omega⟩

/-- One grid step of the first layer, at a block whose rows are the rows `e p` of the arrays: the stored value at
    `(p, q)` is the rectified affine value at `(e p, q)`. -/
theorem block0 (X A : FVec Ideal Gin.Nodes .f32) (W : FVec Ideal Gin.Weights .f32) (B : Fin 128 → EReal)
    (x a : FVec Ideal S5000x128 .f32) (w : FVec Ideal S128x128 .f32) (b : FVec Ideal S1x128 .f32) (e : Fin 5000 → Fin 100000)
    (hx : ∀ p k, x (ix2 p k) = X (ix2 (e p) k)) (ha : ∀ p k, a (ix2 p k) = A (ix2 (e p) k))
    (hw : ∀ k q, w (ix2 k q) = W (ix2 k q)) (hb : ∀ q, b (ix2 (0 : Fin 1) q) = B q) (p : Fin 5000) (q : Fin 128) :
    k0_pay1 (F := Ideal) x a w b (ix2 p q) = Gin.rectify (Gin.affine (fun i => X i + A i) W B) (ix2 (e p) q) := by
  rw [Body.pay0_apply]
  simp only [hx, ha, hw, hb]
  rfl

/-- One grid step of the second layer, the same without the rectifier. -/
theorem block1 (X A : FVec Ideal Gin.Nodes .f32) (W : FVec Ideal Gin.Weights .f32) (B : Fin 128 → EReal)
    (x a : FVec Ideal S5000x128 .f32) (w : FVec Ideal S128x128 .f32) (b : FVec Ideal S1x128 .f32) (e : Fin 5000 → Fin 100000)
    (hx : ∀ p k, x (ix2 p k) = X (ix2 (e p) k)) (ha : ∀ p k, a (ix2 p k) = A (ix2 (e p) k))
    (hw : ∀ k q, w (ix2 k q) = W (ix2 k q)) (hb : ∀ q, b (ix2 (0 : Fin 1) q) = B q) (p : Fin 5000) (q : Fin 128) :
    k1_pay1 (F := Ideal) x a w b (ix2 p q) = Gin.affine (fun i => X i + A i) W B (ix2 (e p) q) := by
  rw [Body.pay1_apply]
  simp only [hx, ha, hw, hb]
  rfl

end Cert.KernelIdeal.Region

end
-- ==== Proof.KRegion0.lean ====
/-
  The first layer kernel's output ARRAY after its region, as one function of the arrays the region finds on entry.

  The region walks 20 grid points; point `t` stages rows `5000·t … 5000·t + 4999` of the node features and of the
  aggregated neighbour features, the whole weights and the whole bias row, and writes back the same rows of the
  output. What it writes is the layer's value at those rows (the body's payload read at an index), and the 20 row
  blocks tile the 100000 nodes, so after the region the output array is the layer's value everywhere.
-/
import proofs.«157389_j46531675685231_1_alg».proof.Proof.Gen.KernelIdeal.Frame
import proofs.«157389_j46531675685231_1_alg».proof.Proof.KBlock
import Idealize.ShloMosaic.Lib.Pipeline.Value

set_option maxRecDepth 16384

noncomputable section

namespace Cert.KernelIdeal.Region

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The printed index maps, decided once over the 20 grid points: the two feature windows move with the output
    window along the node axis and sit at lane block 0; the weights and the bias stay at block (0, 0). -/
theorem idx0 : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 2) = 0 ∧ win0_4.index t (0 : Fin 2) ≤ 19 :=
  (by decide +kernel : ∀ t : Fin grid0.N, _)

/-- Every one of the 20 node blocks is some grid point's. -/
theorem onto0 : ∀ n : Fin 20, ∃ t : Fin cfg0.N, win0_4.index t = ![n.val, 0] :=
  (by decide +kernel : ∀ n : Fin 20, ∃ t : Fin grid0.N, win0_4.index t = ![n.val, 0])

/-- The arrays the region reads, as it finds them, each at its literal type. -/
abbrev feat0 (c : Dev nD) : FVec Ideal Gin.Nodes .f32 := V c main_arg0
abbrev nbrs0 (c : Dev nD) : FVec Ideal Gin.Nodes .f32 := V c main_v13
abbrev wts0 (c : Dev nD) : FVec Ideal Gin.Weights .f32 := V c main_arg2
abbrev biasRow0 (c : Dev nD) : FVec Ideal S1x128 .f32 := V c main_v14

/-- What the region leaves in its output array, as one function of the arrays it finds on entry. -/
abbrev G0 (c : Dev nD) : FVec Ideal Gin.Nodes .f32 :=
  Gin.rectify (Gin.affine (fun i => feat0 V c i + nbrs0 V c i) (wts0 V c) (fun q => biasRow0 V c (ix2 (0 : Fin 1) q)))

/-- Row `p`, feature `k` of the node-feature block at point `t` is row `n·5000 + p` of the array, `n` the
    output's block index at `t`. -/
theorem readX0 (c : Dev nD) (t : Fin cfg0.N) (h : win0_4.index t (0 : Fin 2) ≤ 19) (p : Fin 5000) (k : Fin 128) :
    iblk0 V c 0 t (ix2 p k) = feat0 V c (ix2 (rowOf (win0_4.index t (0 : Fin 2)) h p) k) := by
  obtain ⟨e0, e1, -⟩ := idx0 t
  show feat0 V c (((cfg0.win 0).blk t).view.emb (ix2 p k)) = _
  refine congrArg _ (funext fun a => Fin.ext ?_)
  match a with
  | ⟨0, _⟩ => show win0_0.index t (0 : Fin 2) * 5000 + 1 * p.val = win0_4.index t (0 : Fin 2) * 5000 + p.val; omega
  | ⟨1, _⟩ => show win0_0.index t (1 : Fin 2) * 128 + 1 * k.val = k.val; omega

/-- The same for the aggregated-neighbour block. -/
theorem readA0 (c : Dev nD) (t : Fin cfg0.N) (h : win0_4.index t (0 : Fin 2) ≤ 19) (p : Fin 5000) (k : Fin 128) :
    iblk0 V c 1 t (ix2 p k) = nbrs0 V c (ix2 (rowOf (win0_4.index t (0 : Fin 2)) h p) k) := by
  obtain ⟨-, -, e2, e3, -⟩ := idx0 t
  show nbrs0 V c (((cfg0.win 1).blk t).view.emb (ix2 p k)) = _
  refine congrArg _ (funext fun a => Fin.ext ?_)
  match a with
  | ⟨0, _⟩ => show win0_1.index t (0 : Fin 2) * 5000 + 1 * p.val = win0_4.index t (0 : Fin 2) * 5000 + p.val; omega
  | ⟨1, _⟩ => show win0_1.index t (1 : Fin 2) * 128 + 1 * k.val = k.val; omega

/-- The weights' one block is the whole weight array. -/
theorem readW0 (c : Dev nD) (t : Fin cfg0.N) (k q : Fin 128) :
    iblk0 V c 2 t (ix2 k q) = wts0 V c (ix2 k q) := by
  obtain ⟨-, -, -, -, e4, e5, -⟩ := idx0 t
  show wts0 V c (((cfg0.win 2).blk t).view.emb (ix2 k q)) = _
  refine congrArg _ (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

/-- The bias' one block is the whole bias row. -/
theorem readB0 (c : Dev nD) (t : Fin cfg0.N) (q : Fin 128) :
    iblk0 V c 3 t (ix2 (0 : Fin 1) q) = biasRow0 V c (ix2 (0 : Fin 1) q) := by
  obtain ⟨-, -, -, -, -, -, e6, e7, -⟩ := idx0 t
  show biasRow0 V c (((cfg0.win 3).blk t).view.emb (ix2 (0 : Fin 1) q)) = _
  refine congrArg _ (funext fun a => Fin.ext ?_)
  match a with
  | ⟨0, _⟩ => show win0_3.index t (0 : Fin 2) * 1 + 1 * 0 = 0; omega
  | ⟨1, _⟩ => show win0_3.index t (1 : Fin 2) * 128 + 1 * q.val = q.val; omega

/-- What point `t` writes back is block `t` of `G0`. -/
theorem flushed0 (c : Dev nD) (t : Fin cfg0.N) :
    (dat0 V c).flushed 4 t = ((cfg0.win 4).blk t).view.read (Elt Ideal) (G0 V c) := by
  show (cfg0.win 4).cut (grid0.coords t) ((dat0 V c).after 4 t) = _
  rw [after0_4]
  unfold out0_4
  rw [View.canon_unit_zero hz]
  simp only [View.ld_unit_zero (S := S5000x128) hz, View.ld_unit_zero (S := S128x128) hz, View.ld_unit_zero (S := S1x128) hz]
  obtain ⟨-, -, -, -, -, -, -, -, e8, e9⟩ := idx0 t
  funext j
  obtain ⟨p, q, rfl⟩ : ∃ (p : Fin 5000) (q : Fin 128), j = ix2 p q := ⟨j 0, j 1, eq_ix2 j⟩
  have hemb : ((cfg0.win 4).blk t).view.emb (ix2 p q) = ix2 (rowOf (win0_4.index t (0 : Fin 2)) e9 p) q := by
    funext a; apply Fin.ext
    match a with
    | ⟨0, _⟩ => show win0_4.index t (0 : Fin 2) * 5000 + 1 * p.val = win0_4.index t (0 : Fin 2) * 5000 + p.val; omega
    | ⟨1, _⟩ => show win0_4.index t (1 : Fin 2) * 128 + 1 * q.val = q.val; omega
  show k0_pay1 (F := Ideal) (iblk0 V c 0 t) (iblk0 V c 1 t) (iblk0 V c 2 t) (iblk0 V c 3 t) (ix2 p q)
    = G0 V c (((cfg0.win 4).blk t).view.emb (ix2 p q))
  rw [hemb]
  exact block0 (feat0 V c) (nbrs0 V c) (wts0 V c) (fun q => biasRow0 V c (ix2 (0 : Fin 1) q))
    (iblk0 V c 0 t) (iblk0 V c 1 t) (iblk0 V c 2 t) (iblk0 V c 3 t) (rowOf (win0_4.index t (0 : Fin 2)) e9)
    (readX0 V c t e9) (readA0 V c t e9) (readW0 V c t) (readB0 V c t) p q

/-- An index of the array is in point `t`'s output block iff each coordinate is in the block's range. -/
theorem mem_blk0 (t : Fin cfg0.N) (i : S100000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v15).slice (win0_4.rect t)).set ↔ _
  rw [View.set_slice_whole, Rect.mem_set_unit]
  exact Iff.rfl

/-- The 20 output blocks tile the array: node `r` lies in block `r / 5000`. -/
theorem cover0 (i : S100000x128.Idx) : ∃ t : Fin cfg0.N, (cfg0.win 4).flush t = true ∧ i ∈ ((cfg0.win 4).blk t).view.set := by
  have hi0 : (i 0).val < 100000 := (i 0).isLt
  have hi1 : (i 1).val < 128 := (i 1).isLt
  obtain ⟨t, ht⟩ := onto0 ⟨(i 0).val / 5000, by omega⟩
  have q0 : win0_4.index t (0 : Fin 2) = (i 0).val / 5000 := congrFun ht 0
  have q1 : win0_4.index t (1 : Fin 2) = 0 := congrFun ht 1
  refine ⟨t, flush0_4 t, ?_⟩
  rw [mem_blk0]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega

/-- The output array after the region: `G0` of the arrays the region found. -/
theorem final0 (c : Dev nD) : (dat0 V c).arrAt 4 cfg0.N = G0 V c :=
  (dat0 V c).arrAt_eq_of_cover 4 (G0 V c) (fun t _ => flushed0 V c t) cover0

end Cert.KernelIdeal.Region

end
-- ==== Proof.KHost.lean ====
/-
  What the two layer kernels find in their windows' arrays when their regions are entered.

  Before each region the host computes, from the edge list and a feature array `z`, the neighbour aggregation:
  it takes the edges' source nodes (a negative index counted from the end, as indexing does), gathers their feature
  rows, and adds each gathered row into the row of the edge's destination node of a zero array. That chain of host
  operations is the same before both regions; it is named here once, as `aggregate`, and never opened. The first
  region finds the input features and their aggregation; the second finds the first region's output array and its
  aggregation. Each region also finds its weights as launched and its bias as a one-row matrix.
-/
import proofs.«157389_j46531675685231_1_alg».proof.Proof.Gen.KernelIdeal.Frame
import Idealize.ShloMosaic.Lib.StableHlo.Run
import Idealize.ShloMosaic.PureOps.Ideal

set_option maxRecDepth 16384

noncomputable section

namespace Cert.KernelIdeal.Host

open Cert.KernelIdeal Cert.KernelIdeal.Gen Idealize.ShloMosaic Idealize.ShloMosaic.TcCoe Idealize.ShloMosaic.StableHlo
open Idealize.SL Idealize.SL.Sem

/-- The edges' source nodes: row 0 of the edge list. -/
def sources (ei : IVec S2x640000 32) : IVec S640000 32 :=
  shapeCast _ (extractStridedSlice S1x640000 ![0, 0] ei slices_S2x640000_S1x640000_0_0) shapeCasts_S1x640000_S640000

/-- The edges' destination nodes: row 1 of the edge list. -/
def destinations (ei : IVec S2x640000 32) : IVec S640000 32 :=
  shapeCast _ (extractStridedSlice S1x640000 ![1, 0] ei slices_S2x640000_S1x640000_1_0) shapeCasts_S1x640000_S640000

/-- A negative index counts from the end: 100000 is added to it. -/
def wrapped (s : IVec S640000 32) : IVec S640000 32 :=
  select (cmpi .slt s (broadcastInDim S640000 ![] bcast_S_S640000 (constantI S_ 32 0#32)))
    (addi s (broadcastInDim S640000 ![] bcast_S_S640000 (constantI S_ 32 100000#32))) s

/-- The neighbour aggregation of a feature array along the edge list: the gathered source rows scattered, with
    addition, to the destination rows of a zero array. -/
def aggregate (ei : IVec S2x640000 32) (z : FVec Ideal S100000x128 .f32) : FVec Ideal S100000x128 .f32 :=
  Host.scatterAdd scatter_S100000x128_S640000x1_S640000x128_1_0_0_1
    (broadcastInDim S100000x128 ![] bcast_S_S100000x128 (constant (F := Ideal) S_ .f32 0x00000000#32))
    (broadcastInDim S640000x1 ![0] bcast_S640000_S640000x1_0 (destinations ei))
    (Host.gather gather_S100000x128_S640000x1_S640000x128_1_0_n_n_0_1_1128 z
      (broadcastInDim S640000x1 ![0] bcast_S640000_S640000x1_0 (wrapped (sources ei))))

variable (m : (ℓ : Loc nD τ sig) → Buf (Elt Ideal) ℓ) (ρ : Dev nD → PrngReg)

/-- The edge list as launched. -/
abbrev edges (c : Dev nD) : IVec S2x640000 32 := m ((c : Thread nD τ).loc main_arg1)

/-- The source nodes the first host stretch leaves in their buffer. -/
theorem sources_at (c : Dev nD) : W1 m ρ c (Proc.devRef .tc main_v1) = sources (edges m c) := by
  dsimp only [W1, hostOps0]
  after_results <;> rfl

/-- The destination nodes the first host stretch leaves in their buffer. -/
theorem destinations_at (c : Dev nD) : W1 m ρ c (Proc.devRef .tc main_v3) = destinations (edges m c) := by
  dsimp only [W1, hostOps0]
  after_results <;> rfl

/-! ## Region 0's entry -/

theorem entry0_features (c : Dev nD) : V1 m ρ c main_arg0 = m ((c : Thread nD τ).loc main_arg0) := by
  dsimp only [V1, W1, hostOps0]
  after_results <;> rfl

theorem entry0_neighbours (c : Dev nD) :
    V1 m ρ c main_v13 = aggregate (edges m c) (m ((c : Thread nD τ).loc main_arg0)) := by
  dsimp only [V1, W1, hostOps0]
  after_results <;> rfl

theorem entry0_weights (c : Dev nD) : V1 m ρ c main_arg2 = m ((c : Thread nD τ).loc main_arg2) := by
  dsimp only [V1, W1, hostOps0]
  after_results <;> rfl

theorem entry0_bias (c : Dev nD) :
    V1 m ρ c main_v14 = shapeCast _ (m ((c : Thread nD τ).loc main_arg3)) shapeCasts_S128_S1x128 := by
  dsimp only [V1, W1, hostOps0]
  after_results <;> rfl

/-! ## Region 1's entry: the second host stretch starts from region 0's exit -/

/-- A buffer no window of region 0 names is, at the region's exit, as at its entry. -/
theorem exit0_sources (c : Dev nD) : W2 m ρ c (Proc.devRef .tc main_v1) = sources (edges m c) :=
  (W2_of_ne m ρ c main_v1 (by decide)).trans (sources_at m ρ c)

theorem exit0_destinations (c : Dev nD) : W2 m ρ c (Proc.devRef .tc main_v3) = destinations (edges m c) :=
  (W2_of_ne m ρ c main_v3 (by decide)).trans (destinations_at m ρ c)

/-- The hidden features: what region 0's write-backs leave in its output array. -/
abbrev hiddenArr (c : Dev nD) : FVec Ideal S100000x128 .f32 := (dat0 (V1 m ρ) c).arrAt 4 cfg0.N

theorem exit0_hidden (c : Dev nD) : W2 m ρ c (Proc.devRef .tc main_v15) = hiddenArr m ρ c := W2_arr m ρ c 4

theorem entry1_features (c : Dev nD) : V3 m ρ c main_v15 = hiddenArr m ρ c := by
  dsimp only [V3, W3, hostOps1]
  after_results
  exact exit0_hidden m ρ c

theorem entry1_neighbours (c : Dev nD) : V3 m ρ c main_v25 = aggregate (edges m c) (hiddenArr m ρ c) := by
  dsimp only [V3, W3, hostOps1]
  after_results
  rw [exit0_hidden m ρ c, exit0_sources m ρ c, exit0_destinations m ρ c]
  rfl

theorem entry1_weights (c : Dev nD) : V3 m ρ c main_arg4 = m ((c : Thread nD τ).loc main_arg4) := by
  dsimp only [V3, W3, hostOps1]
  after_results
  exact (W2_of_ne m ρ c main_arg4 (by decide)).trans (by
    dsimp only [W1, hostOps0]
    after_results <;> rfl)

theorem entry1_bias (c : Dev nD) :
    V3 m ρ c main_v26 = shapeCast _ (m ((c : Thread nD τ).loc main_arg5)) shapeCasts_S128_S1x128 := by
  dsimp only [V3, W3, hostOps1]
  after_results
  have h5 : W2 m ρ c (Proc.devRef .tc main_arg5) = m ((c : Thread nD τ).loc main_arg5) :=
    (W2_of_ne m ρ c main_arg5 (by decide)).trans (by
      dsimp only [W1, hostOps0]
      after_results <;> rfl)
  rw [h5]
  rfl

end Cert.KernelIdeal.Host

end
-- ==== Proof.KNetwork.lean ====
/-
  The kernel program's result, at the ideal values, is the network of Proof/Spec.lean.

  The run ends with the result buffer at the last segment boundary's contents, which is the second region's output
  array after its write-backs. That array is the second layer's value of the arrays the region found: the hidden
  features and their neighbour aggregation, the second weights and bias. The hidden features are the first region's
  output array, the rectified first layer's value of the input features and their aggregation. Put together, the result is
  the two-layer network of the launch contents, with the host's gather / scatter-add chain as the aggregation.
-/
import proofs.«157389_j46531675685231_1_alg».proof.Proof.KResult
import proofs.«157389_j46531675685231_1_alg».proof.Proof.KRegion0
import proofs.«157389_j46531675685231_1_alg».proof.Proof.KRegion1
import proofs.«157389_j46531675685231_1_alg».proof.Proof.KHost
import proofs.«157389_j46531675685231_1_alg».proof.Proof.Spec
import Idealize.ShloMosaic.Lib.ValueLayout

set_option maxRecDepth 16384

noncomputable section

namespace Cert.KernelIdeal.Network

open Cert.KernelIdeal Cert.KernelIdeal.Gen Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The launch contents, each at its literal type. -/
abbrev features (c : Dev nD) : FVec Ideal S100000x128 .f32 := m ((c : Thread nD τ).loc main_arg0)
abbrev weights0 (c : Dev nD) : FVec Ideal S128x128 .f32 := m ((c : Thread nD τ).loc main_arg2)
abbrev biasVec0 (c : Dev nD) : FVec Ideal S128 .f32 := m ((c : Thread nD τ).loc main_arg3)
abbrev weights1 (c : Dev nD) : FVec Ideal S128x128 .f32 := m ((c : Thread nD τ).loc main_arg4)
abbrev biasVec1 (c : Dev nD) : FVec Ideal S128 .f32 := m ((c : Thread nD τ).loc main_arg5)

/-- The hidden features of the launch contents. -/
def hiddenValue (c : Dev nD) : FVec Ideal Gin.Nodes .f32 :=
  Gin.hidden (Host.aggregate (Host.edges m c)) (features m c) (weights0 m c) (fun q => biasVec0 m c (ix1 q))

/-- The network's result of the launch contents. -/
def value (c : Dev nD) : FVec Ideal Gin.Nodes .f32 :=
  Gin.network (Host.aggregate (Host.edges m c)) (features m c) (weights0 m c) (fun q => biasVec0 m c (ix1 q))
    (weights1 m c) (fun q => biasVec1 m c (ix1 q))

/-- Region 0's output array is the hidden features. -/
theorem hidden_value (c : Dev nD) : Host.hiddenArr m ρ c = hiddenValue m c := by
  refine (Region.final0 (V1 m ρ) c).trans ?_
  have hX : Region.feat0 (V1 m ρ) c = features m c := Host.entry0_features m ρ c
  have hA : Region.nbrs0 (V1 m ρ) c = Host.aggregate (Host.edges m c) (features m c) := Host.entry0_neighbours m ρ c
  have hW : Region.wts0 (V1 m ρ) c = weights0 m c := Host.entry0_weights m ρ c
  have hB : (fun q : Fin 128 => Region.biasRow0 (V1 m ρ) c (ix2 (0 : Fin 1) q)) = fun q => biasVec0 m c (ix1 q) :=
    funext fun q => by
      rw [show Region.biasRow0 (V1 m ρ) c = shapeCast _ (biasVec0 m c) shapeCasts_S128_S1x128 from Host.entry0_bias m ρ c]
      exact shapeCast_a_1a_apply _ _ 0 q
  show Gin.rectify (Gin.affine (fun i => Region.feat0 (V1 m ρ) c i + Region.nbrs0 (V1 m ρ) c i) (Region.wts0 (V1 m ρ) c)
    (fun q => Region.biasRow0 (V1 m ρ) c (ix2 (0 : Fin 1) q))) = _
  rw [hX, hA, hW, hB]
  rfl

/-- The result buffer at the last boundary is the network's value. -/
theorem result_value (c : Dev nD) : W4 m ρ c (Proc.devRef .tc main_v27) = value m c := by
  refine (W4_arr m ρ c 4).trans ?_
  refine (Region.final1 (V3 m ρ) c).trans ?_
  have hX : Region.feat1 (V3 m ρ) c = hiddenValue m c := (Host.entry1_features m ρ c).trans (hidden_value m ρ c)
  have hA : Region.nbrs1 (V3 m ρ) c = Host.aggregate (Host.edges m c) (hiddenValue m c) :=
    (Host.entry1_neighbours m ρ c).trans (congrArg (Host.aggregate (Host.edges m c)) (hidden_value m ρ c))
  have hW : Region.wts1 (V3 m ρ) c = weights1 m c := Host.entry1_weights m ρ c
  have hB : (fun q : Fin 128 => Region.biasRow1 (V3 m ρ) c (ix2 (0 : Fin 1) q)) = fun q => biasVec1 m c (ix1 q) :=
    funext fun q => by
      rw [show Region.biasRow1 (V3 m ρ) c = shapeCast _ (biasVec1 m c) shapeCasts_S128_S1x128 from Host.entry1_bias m ρ c]
      exact shapeCast_a_1a_apply _ _ 0 q
  show Gin.affine (fun i => Region.feat1 (V3 m ρ) c i + Region.nbrs1 (V3 m ρ) c i) (Region.wts1 (V3 m ρ) c)
    (fun q => Region.biasRow1 (V3 m ρ) c (ix2 (0 : Fin 1) q)) = _
  rw [hX, hA, hW, hB]
  rfl

/-- The run, read: every weakly fair execution terminates with the result buffer at the network's value of the launch
    contents and the arguments as launched. -/
theorem run : θ_run defs (onTc (τ := τ) (main (F := Ideal))) ⟨m, fun _ => 0, ρ⟩ (fun r => ∀ c : Dev nD,
      r.2.mem ((c.tc : Thread nD τ).loc main_v27) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_value m ρ c), (h c).2⟩) (Result.run_result m ρ)

end Cert.KernelIdeal.Network

end
-- ==== Proof.RefValue.lean ====
/-
  The reference's result, at the ideal values, is the network of Proof/Spec.lean.

  The reference computes each layer on whole arrays: the features plus their neighbour aggregation, times the weights
  by one `dot_general` (at the ideal values the sum over the 128 contracted features), plus the bias broadcast to
  every node; the first layer is then rectified. Its two gather / scatter-add chains are the aggregation of the input
  features and of the hidden features; they are named `aggregate` and never opened.
-/
import proofs.«157389_j46531675685231_1_alg».proof.Proof.Gen.ReferenceIdeal.Run
import proofs.«157389_j46531675685231_1_alg».proof.Proof.Gen.ReferenceIdeal.Read
import proofs.«157389_j46531675685231_1_alg».proof.Proof.Spec

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem

/-- The edges' source nodes: row 0 of the edge list. -/
def sources (ei : IVec S2x640000 32) : IVec S640000 32 :=
  shapeCast _ (extractStridedSlice S1x640000 ![0, 0] ei slices_S2x640000_S1x640000_0_0) shapeCasts_S1x640000_S640000

/-- The edges' destination nodes: row 1 of the edge list. -/
def destinations (ei : IVec S2x640000 32) : IVec S640000 32 :=
  shapeCast _ (extractStridedSlice S1x640000 ![1, 0] ei slices_S2x640000_S1x640000_1_0) shapeCasts_S1x640000_S640000

/-- A negative index counts from the end: 100000 is added to it. -/
def wrapped (s : IVec S640000 32) : IVec S640000 32 :=
  select (cmpi .slt s (broadcastInDim S640000 ![] bcast_S_S640000 (constantI S_ 32 0#32)))
    (addi s (broadcastInDim S640000 ![] bcast_S_S640000 (constantI S_ 32 100000#32))) s

/-- The neighbour aggregation of a feature array along the edge list: the gathered source rows scattered, with
    addition, to the destination rows of a zero array. -/
def aggregate (ei : IVec S2x640000 32) (z : FVec Ideal S100000x128 .f32) : FVec Ideal S100000x128 .f32 :=
  Host.scatterAdd scatter_S100000x128_S640000x1_S640000x128_1_0_0_1
    (broadcastInDim S100000x128 ![] bcast_S_S100000x128 (constant (F := Ideal) S_ .f32 0x00000000#32))
    (broadcastInDim S640000x1 ![0] bcast_S640000_S640000x1_0 (destinations ei))
    (Host.gather gather_S100000x128_S640000x1_S640000x128_1_0_n_n_0_1_1128 z
      (broadcastInDim S640000x1 ![0] bcast_S640000_S640000x1_0 (wrapped (sources ei))))

/-- The first scatter-add stage is the aggregation of the input features … -/
theorem stage_neighbours0 (x0 : FVec Ideal S100000x128 .f32) (x1 : IVec S2x640000 32) :
    val_main_v13 (F := Ideal) x0 x1 = aggregate x1 x0 := rfl

/-- … and the second the aggregation of the hidden features. -/
theorem stage_neighbours1 (x0 : FVec Ideal S100000x128 .f32) (x1 : IVec S2x640000 32) (x2 : FVec Ideal S128x128 .f32) (x3 : FVec Ideal S128 .f32) :
    val_main_v29 (F := Ideal) x0 x1 x2 x3 = aggregate x1 (val_main_v19 (F := Ideal) x0 x1 x2 x3) := rfl

/-- The first layer's bias, broadcast to a row and then to every node, reads the bias at the feature. -/
theorem bias0_apply (x3 : FVec Ideal S128 .f32) (p : Fin 100000) (q : Fin 128) :
    val_main_v17 (F := Ideal) x3 (ix2 p q) = x3 (ix1 q) := by
  rw [val_main_v17_apply, val_main_v16_apply]
  exact congrArg x3 (funext fun a => by match a with | ⟨0, _⟩ => rfl)

/-- The same for the second layer's. -/
theorem bias1_apply (x5 : FVec Ideal S128 .f32) (p : Fin 100000) (q : Fin 128) :
    val_main_v33 (F := Ideal) x5 (ix2 p q) = x5 (ix1 q) := by
  rw [val_main_v33_apply, val_main_v32_apply]
  exact congrArg x5 (funext fun a => by match a with | ⟨0, _⟩ => rfl)

/-- The first product's operand indices at node `p`, feature `q`: row `p` of the left, column `q` of the right. -/
theorem lidx0 (p : Fin 100000) (q k : Fin 128) : lidx_main_v15 (ix2 p q) k = ix2 p k :=
  funext fun a => by match a with | ⟨0, _⟩ => rfl | ⟨1, _⟩ => rfl
theorem ridx0 (p : Fin 100000) (q k : Fin 128) : ridx_main_v15 (ix2 p q) k = ix2 k q :=
  funext fun a => by match a with | ⟨0, _⟩ => rfl | ⟨1, _⟩ => rfl
theorem lidx1 (p : Fin 100000) (q k : Fin 128) : lidx_main_v31 (ix2 p q) k = ix2 p k :=
  funext fun a => by match a with | ⟨0, _⟩ => rfl | ⟨1, _⟩ => rfl
theorem ridx1 (p : Fin 100000) (q k : Fin 128) : ridx_main_v31 (ix2 p q) k = ix2 k q :=
  funext fun a => by match a with | ⟨0, _⟩ => rfl | ⟨1, _⟩ => rfl

/-- The rectified first layer is the specification's hidden features. -/
theorem hidden_eq (x0 : FVec Ideal S100000x128 .f32) (x1 : IVec S2x640000 32) (x2 : FVec Ideal S128x128 .f32) (x3 : FVec Ideal S128 .f32) :
    val_main_v19 (F := Ideal) x0 x1 x2 x3 = Gin.hidden (aggregate x1) x0 x2 (fun q => x3 (ix1 q)) := by
  funext i
  obtain ⟨p, q, rfl⟩ : ∃ (p : Fin 100000) (q : Fin 128), i = ix2 p q := ⟨i 0, i 1, eq_ix2 i⟩
  rw [val_main_v19_apply, val_main_v18_apply, val_main_v15_apply, bias0_apply, val_main_call0_v0_apply, val_main_call0_cst_apply]
  simp only [val_main_v14_apply, stage_neighbours0, lidx0, ridx0]
  rfl

/-- The second layer on the hidden features is the specification's network. -/
theorem network_eq (x0 : FVec Ideal S100000x128 .f32) (x1 : IVec S2x640000 32) (x2 : FVec Ideal S128x128 .f32) (x3 : FVec Ideal S128 .f32)
    (x4 : FVec Ideal S128x128 .f32) (x5 : FVec Ideal S128 .f32) :
    val_main_v34 (F := Ideal) x0 x1 x2 x3 x4 x5
      = Gin.network (aggregate x1) x0 x2 (fun q => x3 (ix1 q)) x4 (fun q => x5 (ix1 q)) := by
  funext i
  obtain ⟨p, q, rfl⟩ : ∃ (p : Fin 100000) (q : Fin 128), i = ix2 p q := ⟨i 0, i 1, eq_ix2 i⟩
  rw [val_main_v34_apply, val_main_v31_apply, bias1_apply]
  simp only [val_main_v30_apply, stage_neighbours1, hidden_eq, lidx1, ridx1]
  rfl

/-- The reference run's result term is the network of the launch contents. -/
theorem result_eq (m : (ℓ : Loc nD τ sig) → Buf (Elt Ideal) ℓ) (c : Dev nD) :
    Cert.ReferenceIdeal.Value.res_main_v34 m c
      = Gin.network (aggregate (m ((c.tc : Thread nD τ).loc main_arg1))) (m ((c.tc : Thread nD τ).loc main_arg0))
          (m ((c.tc : Thread nD τ).loc main_arg2)) (fun q => (m ((c.tc : Thread nD τ).loc main_arg3) : FVec Ideal S128 .f32) (ix1 q))
          (m ((c.tc : Thread nD τ).loc main_arg4)) (fun q => (m ((c.tc : Thread nD τ).loc main_arg5) : FVec Ideal S128 .f32) (ix1 q)) :=
  (val_main_v34_eq m c).trans (network_eq _ _ _ _ _ _)

end Cert.ReferenceIdeal.RefValue

end
-- ==== Proof.lean ====
/-
  The certificate of a two-layer graph-isomorphism network: a Pallas kernel per layer against a plain jnp reference.

  Both programs compute, for node features `x`, `out = (h + A h) · W2 + b2` with `h = max((x + A x) · W1 + b1, 0)`,
  where `A z` adds to each node the feature rows of the edges' source nodes arriving at it. The neighbour aggregation
  `A` is the same host gather / scatter-add chain in both programs, so it is carried as one function and never
  opened. What differs is the dense part: the kernel walks 20 blocks of 5000 nodes per layer and multiplies on the
  matrix unit after narrowing to bf16, the reference takes one `dot_general` over all nodes. At the ideal values the
  narrowing is the identity and both products are the same sum over the 128 contracted features, block by block, so
  the two results are one function of the arguments; no algebraic law beyond that is used, and the precondition
  (finite inputs) is not needed.

  Proof/Spec.lean states the network; Proof/KBody.lean, KBlock.lean, KRegion0.lean, KRegion1.lean read each region's output
  array as a layer's value of the arrays the region finds; Proof/KHost.lean reads those arrays off the host operations;
  Proof/KResult.lean and KNetwork.lean give the kernel program's run with its result named; Proof/RefValue.lean reads the
  reference's result. The frames of the two kernel programs are the generated ones, the reference's frame is its
  generated run, and the idealization rewrote nothing.
-/
import proofs.«157389_j46531675685231_1_alg».proof.Defs
import proofs.«157389_j46531675685231_1_alg».proof.Proof.Gen.Kernel
import proofs.«157389_j46531675685231_1_alg».proof.Proof.Gen.Kernel.Skeleton
import proofs.«157389_j46531675685231_1_alg».proof.Proof.Gen.Kernel.Launch
import proofs.«157389_j46531675685231_1_alg».proof.Proof.Gen.Kernel.Points
import proofs.«157389_j46531675685231_1_alg».proof.Proof.Gen.Kernel.Frame
import proofs.«157389_j46531675685231_1_alg».proof.Proof.Gen.KernelIdeal
import proofs.«157389_j46531675685231_1_alg».proof.Proof.Gen.KernelIdeal.Skeleton
import proofs.«157389_j46531675685231_1_alg».proof.Proof.Gen.KernelIdeal.Launch
import proofs.«157389_j46531675685231_1_alg».proof.Proof.Gen.KernelIdeal.Points
import proofs.«157389_j46531675685231_1_alg».proof.Proof.Gen.KernelIdeal.Frame
import proofs.«157389_j46531675685231_1_alg».proof.Proof.Gen.ReferenceIdeal
import proofs.«157389_j46531675685231_1_alg».proof.Proof.Gen.ReferenceIdeal.Run
import proofs.«157389_j46531675685231_1_alg».proof.Proof.Gen.ReferenceIdeal.Read
import proofs.«157389_j46531675685231_1_alg».proof.Proof.Gen.Pre_finite_inputs
import proofs.«157389_j46531675685231_1_alg».proof.Proof.KNetwork
import proofs.«157389_j46531675685231_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The two programs' aggregation chains are one function: the same operations over the same dimension numbers. -/
theorem aggregate_eq : Cert.ReferenceIdeal.RefValue.aggregate = Cert.KernelIdeal.Host.aggregate := rfl

/-- Both runs end at the network's value of arguments that agree. -/
theorem algebraic : Cert.algebraic_KernelIdeal_ReferenceIdeal := by
  intro m ρ m' ρ' _ hagree
  refine ⟨fun c => Cert.KernelIdeal.Network.value m c, Cert.KernelIdeal.Network.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.result_eq, (hagree c).1, (hagree c).2.1, (hagree c).2.2.1, (hagree c).2.2.2.1,
    (hagree c).2.2.2.2.1, (hagree c).2.2.2.2.2, aggregate_eq]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
